-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768 : Shape := ⟨2, ![32, 768]⟩
abbrev S768x100000 : Shape := ⟨2, ![768, 100000]⟩
abbrev S100000 : Shape := ⟨1, ![100000]⟩
abbrev S_ : Shape := ⟨0, ![]⟩

class Facts : Prop where
  bcast_S_S32x768 : S_.BroadcastsInDim S32x768 (![] : Fin 0 → Fin S32x768.rank)
  reducesTo_S32x768_S_d0_1 : S32x768.ReducesTo [0, 1] S_
  h_S_ : 0 < S_.numel
  bcast_S_S768x100000 : S_.BroadcastsInDim S768x100000 (![] : Fin 0 → Fin S768x100000.rank)
  reducesTo_S768x100000_S_d0_1 : S768x100000.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  main_v18

def fn {F : FTy → Type} [FloatOps F] (main_arg0 : FVec F S32x768 .f32) (main_arg1 : FVec F S768x100000 .f32) (main_arg2 : FVec F S100000 .f32) (main_arg3 : FVec F S100000 .f32) : IVec S_ 1 :=
  let main_v0 : FVec F S32x768 .f32 := Host.absf main_arg0
  let main_cst : FVec F S_ .f32 := constant S_ .f32 0x7F800000#32
  let main_v1 : FVec F S32x768 .f32 := broadcastInDim S32x768 ![] bcast_S_S32x768 main_cst
  let main_v2 : IVec S32x768 1 := cmpf .olt main_v0 main_v1
  let main_c : IVec S_ 1 := constantI S_ 1 1#1
  let main_v3 : IVec S_ 1 := (fun x v => Host.reduce IntOp.andi x v reducesTo_S32x768_S_d0_1 h_S_) main_v2 main_c
  let main_v4 : FVec F S768x100000 .f32 := Host.absf main_arg1
  let main_cst_0 : FVec F S_ .f32 := constant S_ .f32 0x7F800000#32
  let main_v5 : FVec F S768x100000 .f32 := broadcastInDim S768x100000 ![] bcast_S_S768x100000 main_cst_0
  let main_v6 : IVec S768x100000 1 := cmpf .olt main_v4 main_v5
  let main_c_1 : IVec S_ 1 := constantI S_ 1 1#1
  let main_v7 : IVec S_ 1 := (fun x v => Host.reduce IntOp.andi x v reducesTo_S768x100000_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_v13 main_v16
-- ==== Kernel.lean ====
abbrev S32x768 : Shape := ⟨2, ![32, 768]⟩
abbrev S768x100000 : Shape := ⟨2, ![768, 100000]⟩
abbrev S100000 : Shape := ⟨1, ![100000]⟩
abbrev S1x100000 : Shape := ⟨2, ![1, 100000]⟩
abbrev S32x100000 : Shape := ⟨2, ![32, 100000]⟩
abbrev S768x2048 : Shape := ⟨2, ![768, 2048]⟩
abbrev S1x2048 : Shape := ⟨2, ![1, 2048]⟩
abbrev S32x2048 : Shape := ⟨2, ![32, 2048]⟩

abbrev nBuf : Space → Nat
  | .hbm => 7
  | .vmem => 9
  | .smem => 0
  | _ => 0

abbrev bufTy : (tb : Table) → Fin (tcTables nBuf tb) → BufTy
  | .hbm, ⟨0, _⟩ => ⟨S32x768, .f32⟩
  | .hbm, ⟨1, _⟩ => ⟨S768x100000, .f32⟩
  | .hbm, ⟨2, _⟩ => ⟨S100000, .f32⟩
  | .hbm, ⟨3, _⟩ => ⟨S100000, .f32⟩
  | .hbm, ⟨4, _⟩ => ⟨S1x100000, .f32⟩
  | .hbm, ⟨5, _⟩ => ⟨S1x100000, .f32⟩
  | .hbm, ⟨6, _⟩ => ⟨S32x100000, .f32⟩
  | .local _ .vmem, ⟨0, _⟩ => ⟨S32x768, .f32⟩
  | .local _ .vmem, ⟨1, _⟩ => ⟨S768x2048, .f32⟩
  | .local _ .vmem, ⟨2, _⟩ => ⟨S768x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S32x2048, .f32⟩
  | .local _ .vmem, ⟨8, _⟩ => ⟨S32x2048, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S100000_S1x100000 : S100000.ShapeCasts S1x100000
  inb_S32x768_S32x768_0_0 : ∀ a, (![0, 0] : Fin 2 → Nat) a + S32x768.size a ≤ S32x768.size a
  h_S32x768 : 0 < S32x768.numel
  inb_S768x2048_S768x2048_0_0 : ∀ a, (![0, 0] : Fin 2 → Nat) a + S768x2048.size a ≤ S768x2048.size a
  h_S768x2048 : 0 < S768x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S32x2048 : S1x2048.Broadcasts S32x2048
  inb_S32x2048_S32x2048_0_0 : ∀ a, (![0, 0] : Fin 2 → Nat) a + S32x2048.size a ≤ S32x2048.size a
  h_S32x2048 : 0 < S32x2048.numel
  dot_S32x768_S768x2048_S32x2048_1_0_0_1_n_n_wf : DotDims.WF S32x768 S768x2048 S32x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x768.size a ≤ S32x768.size a
  hwx0_0 : ∀ i : grid0.Coords, EltTy.bits .f32 = 32 ∨ (Rect.block (s := S32x768) S32x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S768x2048.size a < S768x100000.size a
  hwx0_1 : ∀ i : grid0.Coords, EltTy.bits .f32 = 32 ∨ (Rect.unit (s := S768x100000) (fun a => cc0_transform_1 i a * S768x2048.size a) (fun a => (Pipeline.Clip.of (cc0_transform_1 i a) (S768x2048.size a) (S768x100000.size a)).extent (S768x2048.size a)) fun a => Pipeline.Clip.inb (Pipeline.Clip.ok_of (hstart0_1 i a))).WholeWords (EltTy.packing .f32)
  hwxs0_1 : ∀ i : grid0.Coords, EltTy.bits .f32 = 32 ∨ (Rect.unit (s := S768x2048) (fun _ => 0) (fun a => (Pipeline.Clip.of (cc0_transform_1 i a) (S768x2048.size a) (S768x100000.size a)).extent (S768x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x100000.size a
  hwx0_2 : ∀ i : grid0.Coords, EltTy.bits .f32 = 32 ∨ (Rect.unit (s := S1x100000) (fun a => cc0_transform_2 i a * S1x2048.size a) (fun a => (Pipeline.Clip.of (cc0_transform_2 i a) (S1x2048.size a) (S1x100000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x100000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x2048.size a < S1x100000.size a
  hwx0_3 : ∀ i : grid0.Coords, EltTy.bits .f32 = 32 ∨ (Rect.unit (s := S1x100000) (fun a => cc0_transform_3 i a * S1x2048.size a) (fun a => (Pipeline.Clip.of (cc0_transform_3 i a) (S1x2048.size a) (S1x100000.size a)).extent (S1x2048.size a)) fun a => Pipeline.Clip.inb (Pipeline.Clip.ok_of (hstart0_3 i a))).WholeWords (EltTy.packing .f32)
  hwxs0_3 : ∀ i : grid0.Coords, EltTy.bits .f32 = 32 ∨ (Rect.unit (s := S1x2048) (fun _ => 0) (fun a => (Pipeline.Clip.of (cc0_transform_3 i a) (S1x2048.size a) (S1x100000.size a)).extent (S1x2048.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S32x2048.size a < S32x100000.size a
  hwx0_4 : ∀ i : grid0.Coords, EltTy.bits .f32 = 32 ∨ (Rect.unit (s := S32x100000) (fun a => cc0_transform_4 i a * S32x2048.size a) (fun a => (Pipeline.Clip.of (cc0_transform_4 i a) (S32x2048.size a) (S32x100000.size a)).extent (S32x2048.size a)) fun a => Pipeline.Clip.inb (Pipeline.Clip.ok_of (hstart0_4 i a))).WholeWords (EltTy.packing .f32)
  hwxs0_4 : ∀ i : grid0.Coords, EltTy.bits .f32 = 32 ∨ (Rect.unit (s := S32x2048) (fun _ => 0) (fun a => (Pipeline.Clip.of (cc0_transform_4 i a) (S32x2048.size a) (S32x100000.size a)).extent (S32x2048.size a)) fun a => (Nat.zero_add _).trans_le (Pipeline.Clip.extent_le (Pipeline.Clip.ok_of (hstart0_4 i a)))).WholeWords (EltTy.packing .f32)

variable [Facts₀]

def dot_S32x768_S768x2048_S32x2048_1_0_0_1_n_n : DotDims S32x768 S768x2048 S32x2048 where
  lhsContracting := [1]
  rhsContracting := [0]
  lhsNonContracting := [0]
  rhsNonContracting := [1]
  lhsBatch := []
  rhsBatch := []
  wf := dot_S32x768_S768x2048_S32x2048_1_0_0_1_n_n_wf

abbrev win0_0 : Pipeline.Window sig grid0 :=
  Pipeline.Window.ofSpec (Memref.whole main_arg0) S32x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S768x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1x2048.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v2) S32x2048.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x768 : Shape := ⟨2, ![32, 768]⟩
abbrev S768x100000 : Shape := ⟨2, ![768, 100000]⟩
abbrev S100000 : Shape := ⟨1, ![100000]⟩
abbrev S32x100000 : Shape := ⟨2, ![32, 100000]⟩
abbrev S1x100000 : Shape := ⟨2, ![1, 100000]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S768x100000, .f32⟩
  | .hbm, ⟨2, _⟩ => ⟨S100000, .f32⟩
  | .hbm, ⟨3, _⟩ => ⟨S100000, .f32⟩
  | .hbm, ⟨4, _⟩ => ⟨S32x100000, .f32⟩
  | .hbm, ⟨5, _⟩ => ⟨S1x100000, .f32⟩
  | .hbm, ⟨6, _⟩ => ⟨S32x100000, .f32⟩
  | .hbm, ⟨7, _⟩ => ⟨S32x100000, .f32⟩
  | .hbm, ⟨8, _⟩ => ⟨S1x100000, .f32⟩
  | .hbm, ⟨9, _⟩ => ⟨S_, .f32⟩
  | .hbm, ⟨10, _⟩ => ⟨S1x100000, .f32⟩
  | .hbm, ⟨11, _⟩ => ⟨S1x100000, .f32⟩
  | .hbm, ⟨12, _⟩ => ⟨S_, .f32⟩
  | .hbm, ⟨13, _⟩ => ⟨S1x100000, .f32⟩
  | .hbm, ⟨14, _⟩ => ⟨S1x100000, .f32⟩
  | .hbm, ⟨15, _⟩ => ⟨S_, .f32⟩
  | .hbm, ⟨16, _⟩ => ⟨S1x100000, .f32⟩
  | .hbm, ⟨17, _⟩ => ⟨S1x100000, .f32⟩
  | .hbm, ⟨18, _⟩ => ⟨S1x100000, .f32⟩
  | .hbm, ⟨19, _⟩ => ⟨S32x100000, .f32⟩
  | .hbm, ⟨20, _⟩ => ⟨S32x100000, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  bcast_S1x100000_S32x100000_0_1 : S1x100000.BroadcastsInDim S32x100000 (![0, 1] : Fin 2 → Fin S32x100000.rank)
  shapeCasts_S100000_S1x100000 : S100000.ShapeCasts S1x100000
  bcast_S_S1x100000 : S_.BroadcastsInDim S1x100000 (![] : Fin 0 → Fin S1x100000.rank)
  dot_S32x768_S768x100000_S32x100000_1_0_0_1_n_n_wf : DotDims.WF S32x768 S768x100000 S32x100000 [1] [0] [0] [1] [] []

variable [Facts₀]

def dot_S32x768_S768x100000_S32x100000_1_0_0_1_n_n : DotDims S32x768 S768x100000 S32x100000 where
  lhsContracting := [1]
  rhsContracting := [0]
  lhsNonContracting := [0]
  rhsNonContracting := [1]
  lhsBatch := []
  rhsBatch := []
  wf := dot_S32x768_S768x100000_S32x100000_1_0_0_1_n_n_wf

class Facts : Prop extends Facts₀ where

variable [Facts]
-- ==== Proof.KFrame.lean ====
/-
  The word-level kernel runs to the end, faults nowhere and leaves its four argument arrays as they were.

  The launch is the pipeline library's: 49 grid points, the activations fetched once, a 2048-column panel of the
  weights, of the bias row and of the mask row fetched at every point, the 32 × 2048 result panel written back at
  every point.  The array is 100000 columns wide and 49 · 2048 = 100352, so the last panel overhangs it by 352
  columns: its fetch fills only the first 1696 columns of the staging buffer (the rest holds words nothing names)
  and its write-back writes only those 1696 columns.  For the frame nothing the body computes matters: each input
  buffer is handed back as it was found (its block on the columns inside the array, anything past them), and the
  output buffer is handed back at contents nothing here names.
-/
import proofs.«103920_g78194174591064_cont_9to1_m_1273_2_alg».proof.Proof.KBody

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window whose contents the frame does not name: the result's. -/
abbrev forgets : Fin 5 → Bool := fun | 0 => false | 1 => false | 2 => false | 3 => false | 4 => true | ⟨_ + 5, h⟩ => absurd h (Nat.not_lt.2 (Nat.le_add_left _ _))

/-- The proof data: the arrays as the region finds them; after the body at point `t` the activations' buffer at
    its block, the three clipped inputs' buffers at their blocks (filled out past the array's end with the zero
    word, which nothing reads), the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => Scalar.ofBits .f32 0#32) (iblk m c 1 t) := by dsimp only [dats]
theorem after_2 (c : Dev nD) (t : Fin cfg0.N) :
    (dats m 0 c).after 2 t = win0_2.fill (grid0.coords t) (fun _ => Scalar.ofBits .f32 0#32) (iblk m c 2 t) := by dsimp only [dats]
theorem after_3 (c : Dev nD) (t : Fin cfg0.N) :
    (dats m 0 c).after 3 t = win0_3.fill (grid0.coords t) (fun _ => Scalar.ofBits .f32 0#32) (iblk m c 3 t) := by dsimp only [dats]

/-- The activations' buffer holds its block at every point, fetched there or not. -/
theorem before_0 (c : Dev nD) (t : Fin cfg0.N) (d) : (dats m 0 c).before 0 t d = iblk m c 0 t :=
  before0_0_of m (dats m 0 c) (A_eq m c 0) (after_0 m c) t d
/-- Each clipped input is fetched at every point: its buffer holds the block on the columns inside the array and
    `d`, what the overwrite before the fetch left, past them. -/
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) :
    (dats m 0 c).before 3 t d = win0_3.fill (grid0.coords t) d (iblk m c 3 t) := by
  unfold Dat.before; rw [if_pos (fetch0_3 t)]; rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: a clipped window's buffer stated on the columns its transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ X, owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, Window.cut_fill, Window.cut_fill, Window.cut_fill]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (win0_1.fill (grid0.coords t) d1 (iblk m c 1 t))
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  iexists _; iexact H4

/-- The library's body obligation, at every point, the result's window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates; every final state has each input array of the pipeline at its
    entry contents and every other unscoped buffer as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the activations and the weights are inputs the pipeline stages (unchanged), the bias and the mask
    bypass it (only their reshaped copies are staged) and are what they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.FrameProof

end
-- ==== Proof.KiBody.lean ====
/-
  The kernel body on any whole staging buffers, at any float instance.

  One grid point of the kernel loads its four input staging buffers whole — the activations `x0` (32 × 768), a
  768 × 2048 panel of the weights `x1`, and the matching 1 × 2048 panels of the bias `x2` and of the mask `x3` —,
  forms  x0 · x1 + x2 + (1 − x3) · (−10⁹)  (rows of `x2`, `x3` broadcast over the 32 rows), and stores that
  32 × 2048 panel over the whole output staging buffer.  So after the body the output buffer holds that one
  function of the four loaded buffers (`out4`), whatever it held before, and the four inputs are unchanged.
-/
import proofs.«103920_g78194174591064_cont_9to1_m_1273_2_alg».proof.Proof.Gen.KernelIdeal.Frame
import proofs.«103920_g78194174591064_cont_9to1_m_1273_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 32 × 768 buffer, as the rectangle the body loads. -/
abbrev rA : Rect S32x768 := Rect.unit (s := S32x768) ![0, 0] S32x768.size inb_S32x768_S32x768_0_0
/-- The whole 768 × 2048 buffer. -/
abbrev rB : Rect S768x2048 := Rect.unit (s := S768x2048) ![0, 0] S768x2048.size inb_S768x2048_S768x2048_0_0
/-- The whole 1 × 2048 buffer. -/
abbrev rC : Rect S1x2048 := Rect.unit (s := S1x2048) ![0, 0] S1x2048.size inb_S1x2048_S1x2048_0_0
/-- The whole 32 × 2048 buffer, as the rectangle the body stores through. -/
abbrev rO : Rect S32x2048 := Rect.unit (s := S32x2048) ![0, 0] S32x2048.size inb_S32x2048_S32x2048_0_0

/-- What the output staging buffer holds after the body: its one whole store, of the body's arithmetic applied to
    the four loaded buffers. -/
def out4 (x0 : Vec F S32x768 .f32) (x1 : Vec F S768x2048 .f32) (x2 : Vec F S1x2048 .f32) (x3 : Vec F S1x2048 .f32) :
    Vec F S32x2048 .f32 :=
  View.canon [⟨rO, k0_pay1 (View.ld x0 rA) (View.ld x1 rB) (View.ld x2 rC) (View.ld x3 rC)⟩]

/-- The one store covers the buffer. -/
theorem cover4 (p0 : Vec F S32x2048 .f32) (y : S32x2048.Idx) :
    ∃ pc ∈ ([⟨rO, p0⟩] : List (View.Piece (Elt F) S32x2048 .f32)), y ∈ pc.1.set :=
  View.cover_of_tiled [⟨rO, p0⟩] S32x2048.size (by rfl) y

set_option maxHeartbeats 1000000 in
/-- The body on whole staging buffers holding `x0`, `x1`, `x2`, `x3` and anything in the output's: it runs, leaves
    the four inputs as they were and the output's at `out4 x0 x1 x2 x3`. -/
theorem sound_kernel (c : Dev nD) (E : Set ℕ) (i : grid0.Coords)
    (arg1 : Memref sig .tc .vmem S32x768 .f32) (harg1 : arg1.IsWhole) (arg2 : Memref sig .tc .vmem S768x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S32x2048 .f32) (harg5 : arg5.IsWhole)
    (x0 : Vec F S32x768 .f32) (x1 : Vec F S768x2048 .f32) (x2 : Vec F S1x2048 .f32) (x3 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

end Cert.KernelIdeal.Body

end
-- ==== Proof.KiPay.lean ====
/-
  The body's arithmetic read at one entry, over the extended reals.

  Entry (p, q) of the 32 × 2048 panel the body stores is
      Σₖ x0[p, k] · x1[k, q]  +  x2[0, q]  +  (1 − x3[0, q]) · (−10⁹),
  the matrix product accumulated into zero being the plain sum over the 768 contracted positions.  It depends on
  column q of the weight panel and on entry q of the bias and mask rows only: two weight panels (bias rows, mask
  rows) that agree on a column give the same result on that column.
-/
import proofs.«103920_g78194174591064_cont_9to1_m_1273_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Pay

open Cert.KernelIdeal Cert.KernelIdeal.Gen Idealize.ShloMosaic Idealize.ShloMosaic.TcCoe

/-! ## The matrix product's operand positions -/

theorem lhs_0 (i : S32x2048.Idx) (q : dot_S32x768_S768x2048_S32x2048_1_0_0_1_n_n.contr.Idx) :
    (dot_S32x768_S768x2048_S32x2048_1_0_0_1_n_n.lhsIdx i q 0).val = (i 0).val := by
  unfold DotDims.lhsIdx
  rw [dif_neg (show ¬(0 : Fin S32x768.rank) ∈ dot_S32x768_S768x2048_S32x2048_1_0_0_1_n_n.lhsBatch by decide), dif_pos (show (0 : Fin S32x768.rank) ∈ dot_S32x768_S768x2048_S32x2048_1_0_0_1_n_n.lhsNonContracting by decide)]
  rfl
theorem lhs_1 (i : S32x2048.Idx) (q : dot_S32x768_S768x2048_S32x2048_1_0_0_1_n_n.contr.Idx) :
    (dot_S32x768_S768x2048_S32x2048_1_0_0_1_n_n.lhsIdx i q 1).val = (q ⟨0, by decide⟩).val :=
  dot_S32x768_S768x2048_S32x2048_1_0_0_1_n_n.lhsIdx_val_of_single rfl i q
theorem rhs_0 (i : S32x2048.Idx) (q : dot_S32x768_S768x2048_S32x2048_1_0_0_1_n_n.contr.Idx) :
    (dot_S32x768_S768x2048_S32x2048_1_0_0_1_n_n.rhsIdx i q 0).val = (q ⟨0, by decide⟩).val :=
  dot_S32x768_S768x2048_S32x2048_1_0_0_1_n_n.rhsIdx_val_of_single rfl i q
theorem rhs_1 (i : S32x2048.Idx) (q : dot_S32x768_S768x2048_S32x2048_1_0_0_1_n_n.contr.Idx) :
    (dot_S32x768_S768x2048_S32x2048_1_0_0_1_n_n.rhsIdx i q 1).val = (i 1).val := by
  unfold DotDims.rhsIdx
  rw [dif_neg (show ¬(1 : Fin S768x2048.rank) ∈ dot_S32x768_S768x2048_S32x2048_1_0_0_1_n_n.rhsBatch by decide), dif_pos (show (1 : Fin S768x2048.rank) ∈ dot_S32x768_S768x2048_S32x2048_1_0_0_1_n_n.rhsNonContracting by decide)]
  rfl

/-- Row `i 0`, position `k` of the activations. -/
abbrev actIdx (i : S32x2048.Idx) (k : Fin 768) : S32x768.Idx := fun a => match a with
  | ⟨0, _⟩ => ⟨(i 0).val, (i 0).isLt⟩
  | ⟨1, _⟩ => ⟨k.val, k.isLt⟩
/-- Position `k`, column `i 1` of the weight panel. -/
abbrev wgtIdx (i : S32x2048.Idx) (k : Fin 768) : S768x2048.Idx := fun a => match a with
  | ⟨0, _⟩ => ⟨k.val, k.isLt⟩
  | ⟨1, _⟩ => ⟨(i 1).val, (i 1).isLt⟩
/-- Entry `i 1` of a 1 × 2048 row. -/
abbrev rowIdx (i : S32x2048.Idx) : S1x2048.Idx := fun a => match a with
  | ⟨0, _⟩ => ⟨0, Nat.one_pos⟩
  | ⟨1, _⟩ => ⟨(i 1).val, (i 1).isLt⟩

/-- The matrix product into the zero accumulator, at an entry: the sum over the contracted axis. -/
theorem matmul_at (x0 : FVec Ideal S32x768 .f32) (x1 : FVec Ideal S768x2048 .f32) (i : S32x2048.Idx) :
    matmul (F := Ideal) dot_S32x768_S768x2048_S32x2048_1_0_0_1_n_n none x0 x1 (constant S32x2048 .f32 0x00000000#32) i
      = ∑ k : Fin 768, x0 (actIdx i k) * x1 (wgtIdx i k) := by
  simp only [matmul]
  rw [Ideal.matmul_constant_zero_apply, ← Equiv.sum_comp (ValueIdx.contrEquiv1 dot_S32x768_S768x2048_S32x2048_1_0_0_1_n_n 768 rfl rfl).symm]
  refine Finset.sum_congr rfl fun k _ => ?_
  have hk := ValueIdx.contrEquiv1_symm_val dot_S32x768_S768x2048_S32x2048_1_0_0_1_n_n 768 rfl rfl k
  have el : dot_S32x768_S768x2048_S32x2048_1_0_0_1_n_n.lhsIdx i ((ValueIdx.contrEquiv1 dot_S32x768_S768x2048_S32x2048_1_0_0_1_n_n 768 rfl rfl).symm k) = actIdx i k := funext fun a => Fin.ext (by
    match a with
    | ⟨0, _⟩ => exact lhs_0 _ _
    | ⟨1, _⟩ => exact (lhs_1 _ _).trans hk)
  have er : dot_S32x768_S768x2048_S32x2048_1_0_0_1_n_n.rhsIdx i ((ValueIdx.contrEquiv1 dot_S32x768_S768x2048_S32x2048_1_0_0_1_n_n 768 rfl rfl).symm k) = wgtIdx i k := funext fun a => Fin.ext (by
    match a with
    | ⟨0, _⟩ => exact (rhs_0 _ _).trans hk
    | ⟨1, _⟩ => exact rhs_1 _ _)
  rw [el, er]

/-- A 1 × 2048 row broadcast over the 32 rows, at an entry: the row's entry in that column. -/
theorem bcast_at {α : Type} (v : S1x2048.Idx → α) (i : S32x2048.Idx) :
    broadcastTo S32x2048 v broadcasts_S1x2048_S32x2048 i = v (rowIdx i) :=
  broadcastTo_apply v broadcasts_S1x2048_S32x2048 i (rowIdx i) (fun a => match a with
    | ⟨0, _⟩ => by show 0 = if (1 : Nat) = 1 then 0 else _; rw [if_pos rfl]
    | ⟨1, _⟩ => by show (i 1).val = if (2048 : Nat) = 1 then 0 else (i 1).val; rw [if_neg (by decide)])

/-- The stored panel at an entry. -/
theorem pay_apply (x0 : Vec Ideal S32x768 .f32) (x1 : Vec Ideal S768x2048 .f32) (x2 x3 : Vec Ideal S1x2048 .f32) (i : S32x2048.Idx) :
    k0_pay1 (F := Ideal) x0 x1 x2 x3 i
      = (∑ k : Fin 768, x0 (actIdx i k) * x1 (wgtIdx i k)) + x2 (rowIdx i)
        + (Ideal.ofBits .f32 0x3F800000#32 - x3 (rowIdx i)) * Ideal.ofBits .f32 0xCE6E6B28#32 := by
  unfold k0_pay1
  simp only [ValueIdx.addf_apply, bcast_at, shapeCast_self, matmul_at, ValueIdx.mulf_apply, ValueIdx.subf_apply, ValueIdx.broadcast_apply]
  rfl

/-- The stored panel at an entry depends only on that column of the weight panel and that entry of the two rows. -/
theorem pay_congr_col (x0 : Vec Ideal S32x768 .f32) (x1 x1' : Vec Ideal S768x2048 .f32) (x2 x2' x3 x3' : Vec Ideal S1x2048 .f32)
    (i : S32x2048.Idx) (h1 : ∀ k : Fin 768, x1 (wgtIdx i k) = x1' (wgtIdx i k)) (h2 : x2 (rowIdx i) = x2' (rowIdx i))
    (h3 : x3 (rowIdx i) = x3' (rowIdx i)) :
    k0_pay1 (F := Ideal) x0 x1 x2 x3 i = k0_pay1 (F := Ideal) x0 x1' x2' x3' i := by
  rw [pay_apply, pay_apply, h2, h3]
  exact congrArg (fun s => s + x2' (rowIdx i) + (Ideal.ofBits .f32 0x3F800000#32 - x3' (rowIdx i)) * Ideal.ofBits .f32 0xCE6E6B28#32)
    (Finset.sum_congr rfl fun k _ => by rw [h1 k])

end Cert.KernelIdeal.Pay

end
-- ==== Proof.KiData.lean ====
/-
  The idealized kernel's run with every staging buffer named.

  After the body at grid point `t` the activations' buffer holds its block; the weights', the bias row's and the
  mask row's hold their blocks on the columns inside the array (all 2048 at the first 48 points, the first 1696 at
  the last) and, past them, a filler nothing reads; the result's holds the body's arithmetic of those four.  What
  the fetches actually leave past the array's end is not the filler, but on the columns inside the array the
  body's result does not depend on it — entry (p, q) reads column q only —, and those are the columns the
  write-back moves and the only ones the pipeline's obligation for a clipped window speaks of.
-/
import proofs.«103920_g78194174591064_cont_9to1_m_1273_2_alg».proof.Proof.KiBody
import proofs.«103920_g78194174591064_cont_9to1_m_1273_2_alg».proof.Proof.KiPay

set_option maxRecDepth 16384

noncomputable section

namespace Cert.KernelIdeal.ValueProof

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The one store is the body's arithmetic of the loaded buffers -/

theorem hz : (![0, 0] : Fin 2 → Nat) = fun _ => 0 := funext fun a => by fin_cases a <;> rfl

theorem out4_eq {F : FTy → Type} [FloatOps F] (x0 : Vec F S32x768 .f32) (x1 : Vec F S768x2048 .f32) (x2 x3 : Vec F S1x2048 .f32) :
    out4 x0 x1 x2 x3 = k0_pay1 x0 x1 x2 x3 := by
  unfold out4
  rw [View.canon_unit_zero hz]
  simp only [View.ld_unit_zero (S := S32x768) hz, View.ld_unit_zero (S := S768x2048) hz, View.ld_unit_zero (S := S1x2048) hz]

/-! ## Which columns a point's transfers move -/

/-- Over the grid: the weight panel is never cut along the contracted axis nor the rows along their unit axis, and
    along the columns the three clipped inputs are cut exactly where the result is. -/
theorem moved_facts : ∀ t : Fin cfg0.N,
    win0_1.xsize (grid0.coords t) (0 : Fin 2) = 768 ∧ win0_1.xsize (grid0.coords t) (1 : Fin 2) = win0_4.xsize (grid0.coords t) (1 : Fin 2)
    ∧ win0_2.xsize (grid0.coords t) (0 : Fin 2) = 1 ∧ win0_2.xsize (grid0.coords t) (1 : Fin 2) = win0_4.xsize (grid0.coords t) (1 : Fin 2)
    ∧ win0_3.xsize (grid0.coords t) (0 : Fin 2) = 1 ∧ win0_3.xsize (grid0.coords t) (1 : Fin 2) = win0_4.xsize (grid0.coords t) (1 : Fin 2) :=
  (by decide +kernel : ∀ t : Fin grid0.N, _)

/-- On an entry the transfer moves, a filled buffer does not depend on the filler. -/
theorem fill_congr_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits (F := Ideal) .f32 0#32) (iblk m c 1 t)
    | ⟨2, _⟩ => win0_2.fill (grid0.coords t) (fun _ => Scalar.ofBits (F := Ideal) .f32 0#32) (iblk m c 2 t)
    | ⟨3, _⟩ => win0_3.fill (grid0.coords t) (fun _ => Scalar.ofBits (F := Ideal) .f32 0#32) (iblk m c 3 t)
    | ⟨4, _⟩ => out4 (iblk m c 0 t) (win0_1.fill (grid0.coords t) (fun _ => Scalar.ofBits (F := Ideal) .f32 0#32) (iblk m c 1 t))
        (win0_2.fill (grid0.coords t) (fun _ => Scalar.ofBits (F := Ideal) .f32 0#32) (iblk m c 2 t)) (win0_3.fill (grid0.coords t) (fun _ => Scalar.ofBits (F := Ideal) .f32 0#32) (iblk m c 3 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => Scalar.ofBits (F := Ideal) .f32 0#32) (iblk m c 1 t) := by dsimp only [dats]
theorem after_2 (c : Dev nD) (t : Fin cfg0.N) :
    (dats m 0 c).after 2 t = win0_2.fill (grid0.coords t) (fun _ => Scalar.ofBits (F := Ideal) .f32 0#32) (iblk m c 2 t) := by dsimp only [dats]
theorem after_3 (c : Dev nD) (t : Fin cfg0.N) :
    (dats m 0 c).after 3 t = win0_3.fill (grid0.coords t) (fun _ => Scalar.ofBits (F := Ideal) .f32 0#32) (iblk m c 3 t) := by dsimp only [dats]
theorem after_4 (c : Dev nD) (t : Fin cfg0.N) :
    (dats m 0 c).after 4 t = out4 (iblk m c 0 t) (win0_1.fill (grid0.coords t) (fun _ => Scalar.ofBits (F := Ideal) .f32 0#32) (iblk m c 1 t))
        (win0_2.fill (grid0.coords t) (fun _ => Scalar.ofBits (F := Ideal) .f32 0#32) (iblk m c 2 t)) (win0_3.fill (grid0.coords t) (fun _ => Scalar.ofBits (F := Ideal) .f32 0#32) (iblk m c 3 t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) :
    (dats m 0 c).before 3 t d = win0_3.fill (grid0.coords t) d (iblk m c 3 t) := by
  unfold Dat.before; rw [if_pos (fetch0_3 t)]; rfl

/-! ## The result panel's moved columns do not depend on the fillers -/

theorem cut_out4 (c : Dev nD) (t : Fin cfg0.N) (d1 d1' : S768x2048.Idx → Elt Ideal .f32) (d2 d2' d3 d3' : S1x2048.Idx → Elt Ideal .f32) :
    win0_4.cut (grid0.coords t) (out4 (iblk m c 0 t) (win0_1.fill (grid0.coords t) d1 (iblk m c 1 t))
        (win0_2.fill (grid0.coords t) d2 (iblk m c 2 t)) (win0_3.fill (grid0.coords t) d3 (iblk m c 3 t)))
      = win0_4.cut (grid0.coords t) (out4 (iblk m c 0 t) (win0_1.fill (grid0.coords t) d1' (iblk m c 1 t))
        (win0_2.fill (grid0.coords t) d2' (iblk m c 2 t)) (win0_3.fill (grid0.coords t) d3' (iblk m c 3 t))) := by
  funext j
  rw [out4_eq, out4_eq]
  obtain ⟨e1, e2, e3, e4, e5, e6⟩ := moved_facts t
  have hj : (j 1).val < win0_4.xsize (grid0.coords t) (1 : Fin 2) := (j 1).isLt
  refine Pay.pay_congr_col _ _ _ _ _ _ _ _ (fun k => ?_) ?_ ?_
  · exact fill_congr_moved win0_1 _ _ _ _ _ ((win0_1.moved_iff _ _).mpr fun a => by
      match a with
      | ⟨0, _⟩ => show k.val < win0_1.xsize (grid0.coords t) (0 : Fin 2); rw [e1]; exact k.isLt
      | ⟨1, _⟩ => show (j 1).val < win0_1.xsize (grid0.coords t) (1 : Fin 2); rw [e2]; exact hj)
  · exact fill_congr_moved win0_2 _ _ _ _ _ ((win0_2.moved_iff _ _).mpr fun a => by
      match a with
      | ⟨0, _⟩ => show 0 < win0_2.xsize (grid0.coords t) (0 : Fin 2); rw [e3]; exact Nat.one_pos
      | ⟨1, _⟩ => show (j 1).val < win0_2.xsize (grid0.coords t) (1 : Fin 2); rw [e4]; exact hj)
  · exact fill_congr_moved win0_3 _ _ _ _ _ ((win0_3.moved_iff _ _).mpr fun a => by
      match a with
      | ⟨0, _⟩ => show 0 < win0_3.xsize (grid0.coords t) (0 : Fin 2); rw [e5]; exact Nat.one_pos
      | ⟨1, _⟩ => show (j 1).val < win0_3.xsize (grid0.coords t) (1 : Fin 2); rw [e6]; exact hj)

/-! ## The body obligation -/

/-- A buffer held at contents `X` is held at any contents equal to `X`. -/
theorem owns_of_eq (c : Dev nD) (r : Memref sig .tc .vmem S32x2048 .f32) (X Y : S32x2048.Idx → Elt Ideal .f32) (h : X = Y) :
    (owns (c : Thread nD τ) r fullShare X : sProp 𝕄) ⊢ owns (c : Thread nD τ) r fullShare Y := by
  subst h; exact BI.Entails.refl _

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, Window.cut_fill, Window.cut_fill, Window.cut_fill]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (win0_1.fill (grid0.coords t) d1 (iblk m c 1 t))
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  iexists (out4 (iblk m c 0 t) (win0_1.fill (grid0.coords t) d1 (iblk m c 1 t))
    (win0_2.fill (grid0.coords t) d2 (iblk m c 2 t)) (win0_3.fill (grid0.coords t) d3 (iblk m c 3 t)))
  iapply (owns_of_eq c _ _ _ (win0_4.fill_congr_cut (grid0.coords t) (cut_out4 m c t d1 (fun _ => Scalar.ofBits (F := Ideal) .f32 0#32) d2 (fun _ => Scalar.ofBits (F := Ideal) .f32 0#32) d3 (fun _ => Scalar.ofBits (F := Ideal) .f32 0#32))).symm)
  iexact H4

theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates; every final state has every array of the pipeline at what the
    pipeline library computes from the proof data, and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.ValueProof

end
-- ==== Proof.Spec.lean ====
/-
  The specification: the masked logits as one function of the four argument arrays, over the extended reals.

      logits[p, q] = Σₖ hidden[p, k] · W[k, q]  +  b[q]  +  (1 − mask[q]) · (−10⁹)

  The two literals are kept as the words the programs print (1.0 and −10⁹ in f32); both programs use the same
  words, so their values are never needed.  The reference writes the last term as  mask[q] · 0 + (1 − mask[q]) · (−10⁹);
  on the extended reals a product with zero is zero, so the two forms are the same number.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The masked logits, entry by entry. -/
def logits (hidden : (⟨2, ![32, 768]⟩ : Shape).Idx → EReal) (W : (⟨2, ![768, 100000]⟩ : Shape).Idx → EReal)
    (b mask : (⟨1, ![100000]⟩ : Shape).Idx → EReal) : (⟨2, ![32, 100000]⟩ : Shape).Idx → EReal := fun i =>
  (∑ k : Fin 768, hidden (ix2 (⟨(i 0).val, (i 0).isLt⟩ : Fin 32) k) * W (ix2 k (⟨(i 1).val, (i 1).isLt⟩ : Fin 100000)))
    + b (ix1 (⟨(i 1).val, (i 1).isLt⟩ : Fin 100000))
    + (Ideal.ofBits .f32 0x3F800000#32 - mask (ix1 (⟨(i 1).val, (i 1).isLt⟩ : Fin 100000))) * Ideal.ofBits .f32 0xCE6E6B28#32

/-- The reference's arrangement of the last term: a product with the zero word adds nothing. -/
theorem mask_term (x y : EReal) : x * Ideal.ofBits .f32 0x00000000#32 + y = y := by
  rw [Ideal.ofBits_zero_f32, mul_zero, zero_add]

end Cert.Spec

end
-- ==== Proof.KiValue.lean ====
/-
  The idealized kernel's result array is the masked logits.

  Point `t` writes back columns 2048·t … of the result: all 2048 of its panel at the first 48 points, the first
  1696 at the last (2048·48 + 1696 = 100000).  On those columns the panel the body stored is the masked logits
  there: its weight panel is columns 2048·t … of W, its bias and mask rows are entries 2048·t … of b and mask (the
  host reshapes them to 1 × 100000 rows before the launch), and the activations are the whole of `hidden`.  The
  49 written-back panels cover every column, so the array ends holding the masked logits everywhere.
-/
import proofs.«103920_g78194174591064_cont_9to1_m_1273_2_alg».proof.Proof.KiData
import proofs.«103920_g78194174591064_cont_9to1_m_1273_2_alg».proof.Proof.Spec
import Idealize.ShloMosaic.Lib.StableHlo.Run

set_option maxRecDepth 16384

noncomputable section

namespace Cert.KernelIdeal.ValueProof

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## Where the panels sit -/

/-- Over the grid: the activations' block is the whole array; the weight panel, the two rows and the result panel
    all sit at column block `t`; the result's write-back moves all 32 rows and 2048 columns, but 1696 at the last
    point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) = 0 ∧ win0_4.index t (1 : Fin 2) = t.val
    ∧ win0_4.xsize (grid0.coords t) (0 : Fin 2) = 32
    ∧ win0_4.xsize (grid0.coords t) (1 : Fin 2) = if t.val = 48 then 1696 else 2048 :=
  (by decide +kernel : ∀ t : Fin grid0.N, _)

/-- On an entry the transfer moves, a filled buffer holds the fetched block's entry. -/
theorem fill_of_moved {G : Pipeline.Grid} (w : Pipeline.Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Pipeline.Window.fill; rw [dif_pos h]

/-- A block's entry is the array's entry at the block's place. -/
theorem iblk0_apply (c : Dev nD) (t : Fin cfg0.N) (z : (win0_0.xblock (grid0.coords t)).Idx) :
    iblk m c 0 t z = V m c main_arg0 ((win0_0.blk t).view.emb z) := rfl
theorem iblk1_apply (c : Dev nD) (t : Fin cfg0.N) (z : (win0_1.xblock (grid0.coords t)).Idx) :
    iblk m c 1 t z = V m c main_arg1 ((win0_1.blk t).view.emb z) := rfl
theorem iblk2_apply (c : Dev nD) (t : Fin cfg0.N) (z : (win0_2.xblock (grid0.coords t)).Idx) :
    iblk m c 2 t z = V m c main_v0 ((win0_2.blk t).view.emb z) := rfl
theorem iblk3_apply (c : Dev nD) (t : Fin cfg0.N) (z : (win0_3.xblock (grid0.coords t)).Idx) :
    iblk m c 3 t z = V m c main_v1 ((win0_3.blk t).view.emb z) := rfl

/-! ## The reshaped rows the region finds -/

theorem V_v0 (c : Dev nD) : (V m c main_v0 : S1x100000.Idx → Elt Ideal .f32)
    = shapeCast S1x100000 (m ((c : Thread nD τ).loc main_arg2)) shapeCasts_S100000_S1x100000 := by
  dsimp only [V, hostOps0]; after_results; rfl
theorem V_v1 (c : Dev nD) : (V m c main_v1 : S1x100000.Idx → Elt Ideal .f32)
    = shapeCast S1x100000 (m ((c : Thread nD τ).loc main_arg3)) shapeCasts_S100000_S1x100000 := by
  dsimp only [V, hostOps0]; after_results; rfl

/-- Entry (0, n) of a vector reshaped to a 1 × 100000 row is entry n of the vector. -/
theorem row_at (x : S100000.Idx → Elt Ideal .f32) (z : S1x100000.Idx) :
    shapeCast S1x100000 x shapeCasts_S100000_S1x100000 z = x (ix1 (⟨(z 1).val, (z 1).isLt⟩ : Fin 100000)) :=
  shapeCast_apply x shapeCasts_S100000_S1x100000 z _
    (by rewrite [Shape.rowMajor_val_one, Shape.rowMajor_val_two]; have h0 : (z 0).val < 1 := (z 0).isLt; show (z 1).val = (z 0).val * 100000 + (z 1).val; omega)

/-! ## What a point writes back -/

/-- The panel the body stores at point `t`, on a column the write-back moves, is the masked logits at that panel's
    place in the array. -/
theorem panel_eq (c : Dev nD) (t : Fin cfg0.N) (j : (win0_4.xblock (grid0.coords t)).Idx) :
    k0_pay1 (F := Ideal) (iblk m c 0 t) (win0_1.fill (grid0.coords t) (fun _ => Scalar.ofBits (F := Ideal) .f32 0#32) (iblk m c 1 t))
        (win0_2.fill (grid0.coords t) (fun _ => Scalar.ofBits (F := Ideal) .f32 0#32) (iblk m c 2 t)) (win0_3.fill (grid0.coords t) (fun _ => Scalar.ofBits (F := Ideal) .f32 0#32) (iblk m c 3 t))
        (win0_4.xinj (grid0.coords t) j)
      = Cert.Spec.logits (V m c main_arg0) (V m c main_arg1) (m ((c : Thread nD τ).loc main_arg2)) (m ((c : Thread nD τ).loc main_arg3)) ((win0_4.blk t).view.emb j) := by
  obtain ⟨i00, i01, i10, i11, i20, i21, i30, i31, i40, i41, x40, x41⟩ := idx_facts t
  obtain ⟨e1, e2, e3, e4, e5, e6⟩ := moved_facts t
  have hj1 : (j 1).val < win0_4.xsize (grid0.coords t) (1 : Fin 2) := (j 1).isLt
  rw [Pay.pay_apply]
  unfold Cert.Spec.logits
  refine congrArg₂ (· + ·) (congrArg₂ (· + ·) (Finset.sum_congr rfl fun k _ => congrArg₂ (· * ·) ?_ ?_) ?_)
    (congrArg (fun x => (Ideal.ofBits .f32 0x3F800000#32 - x) * Ideal.ofBits .f32 0xCE6E6B28#32) ?_)
  · -- the activations: row p of the whole array
    refine (iblk0_apply m c t _).trans (congrArg (V m c main_arg0) (funext fun a => Fin.ext ?_))
    match a with
    | ⟨0, _⟩ => show win0_0.index t (0 : Fin 2) * 32 + 1 * (j 0).val = win0_4.index t (0 : Fin 2) * 32 + 1 * (j 0).val; rw [i00, i40]
    | ⟨1, _⟩ => show win0_0.index t (1 : Fin 2) * 768 + 1 * k.val = k.val; rw [i01]; omega
  · -- the weights: the panel's column is the array's column at the panel's place
    have hmv : win0_1.moved (grid0.coords t) (Pay.wgtIdx (win0_4.xinj (grid0.coords t) j) k) = true :=
      (win0_1.moved_iff _ _).mpr fun a => by
        match a with
        | ⟨0, _⟩ => show k.val < win0_1.xsize (grid0.coords t) (0 : Fin 2); rw [e1]; exact k.isLt
        | ⟨1, _⟩ => show (j 1).val < win0_1.xsize (grid0.coords t) (1 : Fin 2); rw [e2]; exact hj1
    refine (fill_of_moved win0_1 _ _ _ _ hmv).trans ((iblk1_apply m c t _).trans (congrArg (V m c main_arg1) (funext fun a => Fin.ext ?_)))
    match a with
    | ⟨0, _⟩ => show win0_1.index t (0 : Fin 2) * 768 + 1 * k.val = k.val; rw [i10]; omega
    | ⟨1, _⟩ => show win0_1.index t (1 : Fin 2) * 2048 + 1 * (j 1).val = win0_4.index t (1 : Fin 2) * 2048 + 1 * (j 1).val; rw [i11]
  · -- the bias row
    have hmv : win0_2.moved (grid0.coords t) (Pay.rowIdx (win0_4.xinj (grid0.coords t) j)) = true :=
      (win0_2.moved_iff _ _).mpr fun a => by
        match a with
        | ⟨0, _⟩ => show 0 < win0_2.xsize (grid0.coords t) (0 : Fin 2); rw [e3]; exact Nat.one_pos
        | ⟨1, _⟩ => show (j 1).val < win0_2.xsize (grid0.coords t) (1 : Fin 2); rw [e4]; exact hj1
    refine (fill_of_moved win0_2 _ _ _ _ hmv).trans ((iblk2_apply m c t _).trans ?_)
    rw [V_v0, row_at]
    refine congrArg (fun q : Fin 100000 => m ((c : Thread nD τ).loc main_arg2) (ix1 q)) (Fin.ext ?_)
    show win0_2.index t (1 : Fin 2) * 2048 + 1 * (j 1).val = win0_4.index t (1 : Fin 2) * 2048 + 1 * (j 1).val
    rw [i21]
  · -- the mask row
    have hmv : win0_3.moved (grid0.coords t) (Pay.rowIdx (win0_4.xinj (grid0.coords t) j)) = true :=
      (win0_3.moved_iff _ _).mpr fun a => by
        match a with
        | ⟨0, _⟩ => show 0 < win0_3.xsize (grid0.coords t) (0 : Fin 2); rw [e5]; exact Nat.one_pos
        | ⟨1, _⟩ => show (j 1).val < win0_3.xsize (grid0.coords t) (1 : Fin 2); rw [e6]; exact hj1
    refine (fill_of_moved win0_3 _ _ _ _ hmv).trans ((iblk3_apply m c t _).trans ?_)
    rw [V_v1, row_at]
    refine congrArg (fun q : Fin 100000 => m ((c : Thread nD τ).loc main_arg3) (ix1 q)) (Fin.ext ?_)
    show win0_3.index t (1 : Fin 2) * 2048 + 1 * (j 1).val = win0_4.index t (1 : Fin 2) * 2048 + 1 * (j 1).val
    rw [i31]

/-- What point `t` writes back is its panel of the masked logits. -/
theorem flushed_eq (c : Dev nD) (t : Fin cfg0.N) :
    (dats m 0 c).flushed 4 t = ((cfg0.win 4).blk t).view.read (Elt Ideal) (Cert.Spec.logits (V m c main_arg0) (V m c main_arg1) (m ((c : Thread nD τ).loc main_arg2)) (m ((c : Thread nD τ).loc main_arg3))) := by
  show (cfg0.win 4).cut (grid0.coords t) ((dats m 0 c).after 4 t) = _
  rw [after_4, out4_eq]
  funext j
  exact panel_eq m c t j

/-! ## The panels cover the array -/

theorem mem_blk (t : Fin cfg0.N) (i : S32x100000.Idx) :
    i ∈ ((cfg0.win 4).blk t).view.set ↔ ∀ a : Fin 2, win0_4.index t a * S32x2048.size a ≤ (i a).val
      ∧ (i a).val < win0_4.index t a * S32x2048.size a + win0_4.xsize (grid0.coords t) a := by
  show i ∈ ((View.whole main_v2).slice (win0_4.rect t)).set ↔ _
  rw [View.set_slice_whole, Rect.mem_set_unit]
  exact Iff.rfl

/-- Column q lies in the panel of point q / 2048. -/
theorem cover (i : S32x100000.Idx) : ∃ t : Fin cfg0.N, (cfg0.win 4).flush t = true ∧ i ∈ ((cfg0.win 4).blk t).view.set := by
  have hi0 : (i 0).val < 32 := (i 0).isLt
  have hi1 : (i 1).val < 100000 := (i 1).isLt
  have ht : (i 1).val / 2048 < cfg0.N := by rw [show cfg0.N = 49 from N_0]; omega
  obtain ⟨i00, i01, i10, i11, i20, i21, i30, i31, i40, i41, x40, x41⟩ := idx_facts ⟨(i 1).val / 2048, ht⟩
  refine ⟨⟨(i 1).val / 2048, ht⟩, flush0_4 _, ?_⟩
  rw [mem_blk]
  intro a
  match a with
  | ⟨0, _⟩ =>
    show win0_4.index ⟨(i 1).val / 2048, ht⟩ (0 : Fin 2) * 32 ≤ (i 0).val
      ∧ (i 0).val < win0_4.index ⟨(i 1).val / 2048, ht⟩ (0 : Fin 2) * 32 + win0_4.xsize (grid0.coords ⟨(i 1).val / 2048, ht⟩) (0 : Fin 2)
    rw [i40, x40]; omega
  | ⟨1, _⟩ =>
    show win0_4.index ⟨(i 1).val / 2048, ht⟩ (1 : Fin 2) * 2048 ≤ (i 1).val
      ∧ (i 1).val < win0_4.index ⟨(i 1).val / 2048, ht⟩ (1 : Fin 2) * 2048 + win0_4.xsize (grid0.coords ⟨(i 1).val / 2048, ht⟩) (1 : Fin 2)
    rw [i41, x41]
    show (i 1).val / 2048 * 2048 ≤ (i 1).val ∧ (i 1).val < (i 1).val / 2048 * 2048 + if (i 1).val / 2048 = 48 then 1696 else 2048
    split <;> omega

/-! ## The array after the run -/

theorem final (c : Dev nD) : (dats m 0 c).arrAt 4 cfg0.N
    = Cert.Spec.logits (m ((c : Thread nD τ).loc main_arg0)) (m ((c : Thread nD τ).loc main_arg1))
        (m ((c : Thread nD τ).loc main_arg2)) (m ((c : Thread nD τ).loc main_arg3)) := by
  have h := (dats m 0 c).arrAt_eq_of_cover 4 (Cert.Spec.logits (V m c main_arg0) (V m c main_arg1) (m ((c : Thread nD τ).loc main_arg2)) (m ((c : Thread nD τ).loc main_arg3))) (fun t _ => flushed_eq m c t) cover
  rw [V_main_arg0, V_main_arg1] at h
  exact h

/-- The run re-posted: the result array at the masked logits of the arguments, the arguments unchanged. -/
theorem run : θ_run defs (onTc (τ := τ) (main (F := Ideal))) ⟨m, fun _ => 0, ρ⟩ fun r => ∀ c : Dev nD,
      r.2.mem ((c.tc : Thread nD τ).loc main_v2)
        = Cert.Spec.logits (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.ValueProof

end
-- ==== Proof.RefIsG.lean ====
/-
  The reference computes the specification.

  Its last stage, read entry by entry through the generated stage lemmas, is
      (Σₖ hidden[p, k] · W[k, q] + b[q]) + (mask[q] · 0 + (1 − mask[q]) · (−10⁹)),
  the bias and the mask term broadcast over the 32 rows; the product with zero vanishes on the extended reals, and
  what is left is the masked logits.
-/
import proofs.«103920_g78194174591064_cont_9to1_m_1273_2_alg».proof.Proof.Gen.ReferenceIdeal.Read
import proofs.«103920_g78194174591064_cont_9to1_m_1273_2_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

theorem ref_eq (x0 : (⟨S32x768, .f32⟩ : BufTy).Contents (Elt Ideal)) (x1 : (⟨S768x100000, .f32⟩ : BufTy).Contents (Elt Ideal))
    (x2 x3 : (⟨S100000, .f32⟩ : BufTy).Contents (Elt Ideal)) :
    val_main_v13 (F := Ideal) x0 x1 x2 x3 = Cert.Spec.logits x0 x1 x2 x3 := by
  funext i
  have eL : ∀ k : Fin 768, lidx_main_v0 i k = ix2 (⟨(i 0).val, (i 0).isLt⟩ : Fin 32) k := fun k => funext fun a => by
    match a with
    | ⟨0, _⟩ => rfl
    | ⟨1, _⟩ => rfl
  have eR : ∀ k : Fin 768, ridx_main_v0 i k = ix2 k (⟨(i 1).val, (i 1).isLt⟩ : Fin 100000) := fun k => funext fun a => by
    match a with
    | ⟨0, _⟩ => rfl
    | ⟨1, _⟩ => rfl
  have eB : idx_main_v1 (idx_main_v2 i) = ix1 (⟨(i 1).val, (i 1).isLt⟩ : Fin 100000) := funext fun a => by
    match a with
    | ⟨0, _⟩ => rfl
  have eM : idx_main_v4 (idx_main_v12 i) = ix1 (⟨(i 1).val, (i 1).isLt⟩ : Fin 100000) := funext fun a => by
    match a with
    | ⟨0, _⟩ => exact Fin.ext (by show 0 * 100000 + (i 1).val = (i 1).val; omega)
  rw [val_main_v13_apply, val_main_v3_apply, val_main_v0_apply, val_main_v2_apply, val_main_v1_apply, val_main_v12_apply,
    val_main_v11_apply, val_main_v6_apply, val_main_v10_apply, val_main_v8_apply, val_main_v4_apply, val_main_v5_apply,
    val_main_v7_apply, val_main_v9_apply, val_main_cst_apply, val_main_cst_0_apply, val_main_cst_1_apply]
  simp only [Ideal.addf_def, Ideal.mulf_def, Ideal.subf_def, Ideal.ofBits_def, Cert.Spec.mask_term, eL, eR, eB, eM]
  rfl

end Cert.ReferenceIdeal.RefValue

end
-- ==== Proof.lean ====
/-
  The certificate of the masked output head:  logits = hidden · W + b + (1 − mask) · (−10⁹).

  The kernel is one pipelined launch over 49 panels of 2048 vocabulary columns (the last overhanging the 100000
  columns by 352, so its transfers are cut to 1696 columns); at each point the body multiplies the resident
  activations by the weight panel and adds the bias panel and the mask term.  The reference is the same formula on
  whole arrays, its mask term written  mask · 0 + (1 − mask) · (−10⁹).

  * The word-level kernel's frame: every buffer the body is handed is handed back, the result panel unnamed
    (the matrix unit's word-level result on the last panel may depend on the unnamed words past the array's end, and
    the frame does not need it).
  * The idealized kernel: over the extended reals entry (p, q) of a result panel reads column q of the weight
    panel and entry q of the two rows only, so on the columns the write-back moves the panel is the masked logits
    there whatever lies past the array's end; the 49 written-back panels cover the array.
  * The reference: its stages read entry by entry give the same sum, the product with zero vanishing.
  * No rewrite was applied in idealizing the kernel, so the idealization is the kernel's own text read over the
    extended reals.
  The finiteness of the inputs is never used: the two sides are the same expression of extended reals.
-/
import proofs.«103920_g78194174591064_cont_9to1_m_1273_2_alg».proof.Defs
import proofs.«103920_g78194174591064_cont_9to1_m_1273_2_alg».proof.Proof.Gen.Kernel
import proofs.«103920_g78194174591064_cont_9to1_m_1273_2_alg».proof.Proof.Gen.KernelIdeal
import proofs.«103920_g78194174591064_cont_9to1_m_1273_2_alg».proof.Proof.Gen.ReferenceIdeal
import proofs.«103920_g78194174591064_cont_9to1_m_1273_2_alg».proof.Proof.Gen.Pre_finite_inputs
import proofs.«103920_g78194174591064_cont_9to1_m_1273_2_alg».proof.Proof.Gen.ReferenceIdeal.Run
import proofs.«103920_g78194174591064_cont_9to1_m_1273_2_alg».proof.Proof.Gen.ReferenceIdeal.Read
import proofs.«103920_g78194174591064_cont_9to1_m_1273_2_alg».proof.Proof.KFrame
import proofs.«103920_g78194174591064_cont_9to1_m_1273_2_alg».proof.Proof.KiValue
import proofs.«103920_g78194174591064_cont_9to1_m_1273_2_alg».proof.Proof.RefIsG
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.FrameProof.frame (F := Bits) m ρ

/-- The idealized kernel runs and leaves its arguments unchanged: its value run, the result dropped. -/
theorem frame_kernelIdeal : Cert.frame_KernelIdeal := fun m ρ _ =>
  (θ_run Cert.KernelIdeal.defs _ _).mono (fun _ h c => (h c).2) (Cert.KernelIdeal.ValueProof.run m ρ)

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in the idealization. -/
theorem preserves : Cert.preserves_Kernel_KernelIdeal := trivial

/-- From memories agreeing on the four arguments both programs end with the masked logits of those arguments. -/
theorem algebraic : Cert.algebraic_KernelIdeal_ReferenceIdeal := by
  intro m ρ m' ρ' _ hagree
  refine ⟨_, Cert.KernelIdeal.ValueProof.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
